-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x128 .f32) (main_arg1 : FVec F S256x256 .f32) (main_arg2 : FVec F S256 .f32) (main_arg3 : FVec F S256x1 .f32) (main_arg4 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S64x128 : Shape := ⟨2, ![64, 128]⟩
abbrev S128x256 : Shape := ⟨2, ![128, 256]⟩
abbrev S64x256 : Shape := ⟨2, ![64, 256]⟩
abbrev S1x256 : Shape := ⟨2, ![1, 256]⟩
abbrev S64x128x1 : Shape := ⟨3, ![64, 128, 1]⟩
abbrev S1x128x256 : Shape := ⟨3, ![1, 128, 256]⟩
abbrev S64x1x256 : Shape := ⟨3, ![64, 1, 256]⟩
abbrev S64x128x256 : Shape := ⟨3, ![64, 128, 256]⟩
abbrev S1x1x256 : Shape := ⟨3, ![1, 1, 256]⟩
abbrev S_ : Shape := ⟨0, ![]⟩
abbrev S4096x1 : Shape := ⟨2, ![4096, 1]⟩
abbrev S4096x129 : Shape := ⟨2, ![4096, 129]⟩

abbrev nBuf : Space → Nat
  | .hbm => 9
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S4096x128, .f32⟩
  | .hbm, ⟨6, _⟩ => ⟨S_, .f32⟩
  | .hbm, ⟨7, _⟩ => ⟨S4096x1, .f32⟩
  | .hbm, ⟨8, _⟩ => ⟨S4096x129, .f32⟩
  | .local _ .vmem, ⟨0, _⟩ => ⟨S64x128, .f32⟩
  | .local _ .vmem, ⟨1, _⟩ => ⟨S64x128, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S64x128, .f32⟩
  | .local _ .vmem, ⟨7, _⟩ => ⟨S64x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x128_S64x128_0_0 : ∀ a, (![0, 0] : Fin 2 → Nat) a + S64x128.size a ≤ S64x128.size a
  h_S64x128 : 0 < S64x128.numel
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  slices_S256x256_o128_0_S128x256 : S256x256.Slices ![128, 0] S128x256
  inb_S256_S256_0 : ∀ a, (![0] : Fin 1 → Nat) a + S256.size a ≤ S256.size a
  h_S256 : 0 < S256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  bitsLt_bf16_f32 : FTy.bits .bf16 < FTy.bits .f32
  shapeCasts_S256_S1x256 : S256.ShapeCasts S1x256
  broadcasts_S1x256_S128x256 : S1x256.Broadcasts S128x256
  shapeCasts_S64x128_S64x128x1 : S64x128.ShapeCasts S64x128x1
  shapeCasts_S128x256_S1x128x256 : S128x256.ShapeCasts S1x128x256
  shapeCasts_S64x256_S64x1x256 : S64x256.ShapeCasts S64x1x256
  broadcasts_S64x128x1_S64x128x256 : S64x128x1.Broadcasts S64x128x256
  broadcasts_S1x128x256_S64x128x256 : S1x128x256.Broadcasts S64x128x256
  broadcasts_S64x1x256_S64x128x256 : S64x1x256.Broadcasts S64x128x256
  shapeCasts_S256x1_S256 : S256x1.ShapeCasts S256
  shapeCasts_S256_S1x1x256 : S256.ShapeCasts S1x1x256
  broadcasts_S1x1x256_S64x128x256 : S1x1x256.Broadcasts S64x128x256
  reduces_S64x128x256_S64x128 : S64x128x256.Reduces [2] S64x128
  inpos_S1_p0 : ∀ a, (![0] : Fin 1 → Nat) a < S1.size a
  bcast_S_S4096x1 : S_.BroadcastsInDim S4096x1 (![] : Fin 0 → Fin S4096x1.rank)
  concatenates_S4096x1_S4096x128_S4096x129_d1 : Shape.Concatenates [S4096x1, S4096x128] S4096x129 1
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S4096x128.size a
  hwx0_5 : ∀ i : grid0.Coords, EltTy.bits .f32 = 32 ∨ (Rect.block (s := S4096x128) S64x128.size (cc0_transform_5 i) (hinb0_5 i)).WholeWords (EltTy.packing .f32)

variable [Facts₀]

def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S_ : Shape := ⟨0, ![]⟩
abbrev S1x4096x128 : Shape := ⟨3, ![1, 4096, 128]⟩
abbrev S128x1x128 : Shape := ⟨3, ![128, 1, 128]⟩
abbrev S128x4096x128 : Shape := ⟨3, ![128, 4096, 128]⟩
abbrev S128x256 : Shape := ⟨2, ![128, 256]⟩
abbrev S128x4096x256 : Shape := ⟨3, ![128, 4096, 256]⟩
abbrev S128x1x256 : Shape := ⟨3, ![128, 1, 256]⟩
abbrev S1x1x256 : Shape := ⟨3, ![1, 1, 256]⟩
abbrev S128x4096x1 : Shape := ⟨3, ![128, 4096, 1]⟩
abbrev S128x4096 : Shape := ⟨2, ![128, 4096]⟩
abbrev S4096x1 : Shape := ⟨2, ![4096, 1]⟩
abbrev S4096x129 : Shape := ⟨2, ![4096, 129]⟩

abbrev nBuf : Space → Nat
  | .hbm => 53
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S1x4096x128, .f32⟩
  | .hbm, ⟨16, _⟩ => ⟨S128x1x128, .f32⟩
  | .hbm, ⟨17, _⟩ => ⟨S128x4096x128, .f32⟩
  | .hbm, ⟨18, _⟩ => ⟨S128x4096x128, .f32⟩
  | .hbm, ⟨19, _⟩ => ⟨S128x4096x128, .f32⟩
  | .hbm, ⟨20, _⟩ => ⟨S128x256, .f32⟩
  | .hbm, ⟨21, _⟩ => ⟨S128x4096x256, .f32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S128x1x256, .f32⟩
  | .hbm, ⟨32, _⟩ => ⟨S128x4096x256, .f32⟩
  | .hbm, ⟨33, _⟩ => ⟨S128x4096x256, .f32⟩
  | .hbm, ⟨34, _⟩ => ⟨S1x1x256, .f32⟩
  | .hbm, ⟨35, _⟩ => ⟨S128x4096x256, .f32⟩
  | .hbm, ⟨36, _⟩ => ⟨S128x4096x256, .f32⟩
  | .hbm, ⟨37, _⟩ => ⟨S_, .f32⟩
  | .hbm, ⟨38, _⟩ => ⟨S128x4096x256, .f32⟩
  | .hbm, ⟨39, _⟩ => ⟨S128x4096x256, .f32⟩
  | .hbm, ⟨40, _⟩ => ⟨S128x4096x1, .f32⟩
  | .hbm, ⟨41, _⟩ => ⟨S128x4096, .f32⟩
  | .hbm, ⟨42, _⟩ => ⟨S_, .f32⟩
  | .hbm, ⟨43, _⟩ => ⟨S128x4096, .f32⟩
  | .hbm, ⟨44, _⟩ => ⟨S128x4096, .f32⟩
  | .hbm, ⟨45, _⟩ => ⟨S4096x128, .f32⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x1, .f32⟩
  | .hbm, ⟨52, _⟩ => ⟨S4096x129, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_cst : Ref sig .tc := ⟨.hbm, 37, rfl⟩
abbrev main_call0_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S4096x128_S1x4096x128_1_2 : S4096x128.BroadcastsInDim S1x4096x128 (![1, 2] : Fin 2 → Fin S1x4096x128.rank)
  bcast_S128x128_S128x1x128_0_2 : S128x128.BroadcastsInDim S128x1x128 (![0, 2] : Fin 2 → Fin S128x1x128.rank)
  bcast_S1x4096x128_S128x4096x128_0_1_2 : S1x4096x128.BroadcastsInDim S128x4096x128 (![0, 1, 2] : Fin 3 → Fin S128x4096x128.rank)
  bcast_S128x1x128_S128x4096x128_0_1_2 : S128x1x128.BroadcastsInDim S128x4096x128 (![0, 1, 2] : Fin 3 → Fin S128x4096x128.rank)
  slices_S256x256_S128x256_0_0 : S256x256.Slices ![0, 0] S128x256
  slices_S256x256_S128x256_128_0 : S256x256.Slices ![128, 0] S128x256
  bcast_S128x256_S128x1x256_0_2 : S128x256.BroadcastsInDim S128x1x256 (![0, 2] : Fin 2 → Fin S128x1x256.rank)
  bcast_S128x1x256_S128x4096x256_0_1_2 : S128x1x256.BroadcastsInDim S128x4096x256 (![0, 1, 2] : Fin 3 → Fin S128x4096x256.rank)
  bcast_S256_S1x1x256_2 : S256.BroadcastsInDim S1x1x256 (![2] : Fin 1 → Fin S1x1x256.rank)
  bcast_S1x1x256_S128x4096x256_0_1_2 : S1x1x256.BroadcastsInDim S128x4096x256 (![0, 1, 2] : Fin 3 → Fin S128x4096x256.rank)
  bcast_S_S128x4096x256 : S_.BroadcastsInDim S128x4096x256 (![] : Fin 0 → Fin S128x4096x256.rank)
  shapeCasts_S128x4096x1_S128x4096 : S128x4096x1.ShapeCasts S128x4096
  shapeCasts_S1_S_ : S1.ShapeCasts S_
  bcast_S_S128x4096 : S_.BroadcastsInDim S128x4096 (![] : Fin 0 → Fin S128x4096.rank)
  transposes_S128x4096_S4096x128_1_0 : S128x4096.Transposes [1, 0] S4096x128
  bcast_S_S4096x128 : S_.BroadcastsInDim S4096x128 (![] : Fin 0 → Fin S4096x128.rank)
  bcast_S_S4096x1 : S_.BroadcastsInDim S4096x1 (![] : Fin 0 → Fin S4096x1.rank)
  concatenates_S4096x1_S4096x128_S4096x129_d1 : Shape.Concatenates [S4096x1, S4096x128] S4096x129 1
  dot_S128x4096x128_S128x256_S128x4096x256_2_0_01_1_n_n_wf : DotDims.WF S128x4096x128 S128x256 S128x4096x256 [2] [0] [0, 1] [1] [] []
  dot_S128x128_S128x256_S128x256_1_0_0_1_n_n_wf : DotDims.WF S128x128 S128x256 S128x256 [1] [0] [0] [1] [] []
  dot_S128x4096x256_S256x1_S128x4096x1_2_0_01_1_n_n_wf : DotDims.WF S128x4096x256 S256x1 S128x4096x1 [2] [0] [0, 1] [1] [] []

variable [Facts₀]

def dot_S128x4096x128_S128x256_S128x4096x256_2_0_01_1_n_n : DotDims S128x4096x128 S128x256 S128x4096x256 where
  lhsContracting := [2]
  rhsContracting := [0]
  lhsNonContracting := [0, 1]
  rhsNonContracting := [1]
  lhsBatch := []
  rhsBatch := []
  wf := dot_S128x4096x128_S128x256_S128x4096x256_2_0_01_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x4096x256_S256x1_S128x4096x1_2_0_01_1_n_n : DotDims S128x4096x256 S256x1 S128x4096x1 where
  lhsContracting := [2]
  rhsContracting := [0]
  lhsNonContracting := [0, 1]
  rhsNonContracting := [1]
  lhsBatch := []
  rhsBatch := []
  wf := dot_S128x4096x256_S256x1_S128x4096x1_2_0_01_1_n_n_wf

class Facts : Prop extends Facts₀ where

variable [Facts]
-- ==== Proof.LibLayout3.lean ====
/-
  Layout operations of rank-3 broadcasting arithmetic, read at an index given by coordinates.

  A kernel that forms an outer product by broadcasting — a matrix `[a, b]` viewed `[a, b, 1]` or `[a, 1, b]`, a
  vector `[a]` viewed `[1, 1, a]`, each then broadcast to `[a, b, c]` — reads, at `(i, j, k)`, one entry of the operand:
  the entry at the coordinates the view keeps, `0` on each unit axis. Each lemma states that for one view or one
  broadcast, for any extents, with both indices written by coordinates; a sum over the last axis of a rank-3 array is
  read as a sum over that coordinate.
-/
import Idealize.ShloMosaic.Lib.Pipeline.Value
import Idealize.ShloMosaic.Lib.ValueIdx
import Idealize.ShloMosaic.PureOps.Ideal.Laws

namespace Cert.Nimo

open Idealize.ShloMosaic Idealize.ShloMosaic.ValueIdx

variable {α : Type}

/-! ## Views that add or drop unit axes -/

/-- An `[a, b]` array viewed `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array viewed `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1]` column viewed as the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` viewed `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-! ## Broadcasts to rank 3 -/

/-- `[a, b, 1]` broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[1, b, c]` broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[a, 1, c]` broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, 1, c]` broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A sum over the last axis -/

/-- A float sum of an `[a, b, c]` array over its last axis, at the ideal values, is at `(i, j)` the sum over `k` of the
    entries `(i, j, k)`. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

end Cert.Nimo
-- ==== Proof.Law.lean ====
/-
  The scalar law behind the certificate, over the extended reals, for finite data.

  For one sample row `a`, one hidden unit's weight column `w`, the positional rows `p` and a bias `b` — all real —
  and a feature `j`, masking feature `j` out of the row before the first linear layer is the unmasked product less the
  rank-one term of feature `j`:
      ∑ i, (a i · (1 − [j = i])) · w i  =  ∑ i, a i · w i − a j · w j,
  and the one-hot row of feature `j` picks its positional row, ∑ k, [j = k] · p k = p j; the bias may be added to
  the positional row first or to the sum last. Every term is a real number, so the identity is proved in ℝ and carried
  to the extended reals by the coercion, which is additive and multiplicative on reals.
-/
import Mathlib.Data.EReal.Inv
import Mathlib.Algebra.BigOperators.Group.Finset.Basic
import Mathlib.Algebra.BigOperators.Ring.Finset
import Mathlib.Tactic.Ring

namespace Cert.Nimo

open Finset

/-- The coercion of the reals into the extended reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The indicator of `j = i` as an extended real. -/
noncomputable def ind {ι : Type*} [DecidableEq ι] (j i : ι) : EReal := if j = i then 1 else 0

theorem ind_coe {ι : Type*} [DecidableEq ι] (j i : ι) : ind j i = (((if j = i then 1 else 0 : ℝ)) : EReal) := by
  unfold ind; split_ifs <;> simp

/-- In ℝ: the masked product is the whole product less feature `j`'s term. -/
theorem masked_sum_real {ι : Type*} [Fintype ι] [DecidableEq ι] (a w : ι → ℝ) (j : ι) :
    (∑ i, (a i * (1 - (if j = i then 1 else 0 : ℝ))) * w i) = (∑ i, a i * w i) - a j * w j := by
  have h : ∀ i, (a i * (1 - (if j = i then 1 else 0 : ℝ))) * w i = a i * w i - (if j = i then a i * w i else 0) := by
    intro i; split_ifs <;> ring
  simp only [h, Finset.sum_sub_distrib, Finset.sum_ite_eq, Finset.mem_univ, if_true]

/-- In ℝ: the one-hot row of feature `j` against the positional rows is row `j`. -/
theorem onehot_sum_real {ι : Type*} [Fintype ι] [DecidableEq ι] (p : ι → ℝ) (j : ι) :
    (∑ k, (if j = k then 1 else 0 : ℝ) * p k) = p j := by
  simp only [ite_mul, one_mul, zero_mul, Finset.sum_ite_eq, Finset.mem_univ, if_true]

/-- The pre-activation of hidden unit `h` for feature `j`, the two ways: on the left the whole product less the
    rank-one term, plus (positional row + bias); on the right the masked product plus the one-hot product, plus the
    bias. Equal on finite data. -/
theorem preact_eq {ι : Type*} [Fintype ι] [DecidableEq ι] (a w p : ι → ℝ) (b : ℝ) (j : ι) :
    ((∑ i, ((a i : ℝ) : EReal) * ((w i : ℝ) : EReal)) - ((a j : ℝ) : EReal) * ((w j : ℝ) : EReal))
        + (((p j : ℝ) : EReal) + ((b : ℝ) : EReal))
      = ((∑ i, (((a i : ℝ) : EReal) * (1 - ind j i)) * ((w i : ℝ) : EReal))
          + ∑ k, ind j k * ((p k : ℝ) : EReal)) + ((b : ℝ) : EReal) := by
  have e1 : (∑ i, ((a i : ℝ) : EReal) * ((w i : ℝ) : EReal)) = ((∑ i, a i * w i : ℝ) : EReal) := by
    rw [← coe_sum]; exact Finset.sum_congr rfl fun i _ => (EReal.coe_mul _ _).symm
  have e2 : (∑ i, (((a i : ℝ) : EReal) * (1 - ind j i)) * ((w i : ℝ) : EReal))
      = ((∑ i, (a i * (1 - (if j = i then 1 else 0 : ℝ))) * w i : ℝ) : EReal) := by
    rw [← coe_sum]
    refine Finset.sum_congr rfl fun i _ => ?_
    rw [ind_coe, ← EReal.coe_one, ← EReal.coe_sub, ← EReal.coe_mul, ← EReal.coe_mul]
  have e3 : (∑ k, ind j k * ((p k : ℝ) : EReal)) = ((∑ k, (if j = k then 1 else 0 : ℝ) * p k : ℝ) : EReal) := by
    rw [← coe_sum]
    refine Finset.sum_congr rfl fun k _ => ?_
    rw [ind_coe, ← EReal.coe_mul]
  rw [e1, e2, e3, masked_sum_real, onehot_sum_real, ← EReal.coe_mul, ← EReal.coe_sub, ← EReal.coe_add, ← EReal.coe_add,
    ← EReal.coe_add, ← EReal.coe_add]
  congr 1
  ring

end Cert.Nimo
-- ==== Proof.Spec.lean ====
/-
  The specification: what both programs compute, as one function of the five argument arrays over the extended reals.

  For sample `n` and feature `j` the gate is
      g(n, j) = ∑ h, max(pre(n, j, h), 0) · W2[h, 0] + b2[0],
      pre(n, j, h) = (∑ k, x[n, k] · W1[k, h] − x[n, j] · W1[j, h]) + (W1[128 + j, h] + b1[h]),
  and the column entry is x[n, j] · (1 + g(n, j)). `pre` is written the kernel's way (one dense product, less the
  rank-one term of feature `j`); `preact_masked` says the reference's way — feature `j` masked out of the row before the
  product, the positional row picked by a one-hot product, the bias added last — is the same number when the row, the
  weights and the bias are finite.
-/
import Idealize.ShloMosaic.Lib.ValueIdx
import Idealize.ShloMosaic.Lib.Affine
import Idealize.ShloMosaic.PureOps.Ideal.Laws
import proofs.«110782_j63264868270309_1_alg».proof.Proof.Law

noncomputable section

namespace Cert.Nimo

open Idealize.ShloMosaic Idealize.ShloMosaic.ValueIdx

/-- Row `k` of the direct half of the first layer's weights, as a row of the whole [256, 256] array. -/
abbrev lo (k : Fin 128) : Fin 256 := ⟨k.val, by have := k.isLt; omega⟩
/-- Row `k` of the positional half: row `128 + k` of the whole array. -/
abbrev hi (k : Fin 128) : Fin 256 := ⟨128 + k.val, by have := k.isLt; omega⟩

/-- The pre-activation of hidden unit `h` for feature `j` on a sample row `a`. -/
def preact (a : Fin 128 → EReal) (W1 : FVec Ideal ⟨2, ![256, 256]⟩ .f32) (b1 : FVec Ideal ⟨1, ![256]⟩ .f32)
    (j : Fin 128) (h : Fin 256) : EReal :=
  ((∑ k : Fin 128, a k * W1 (ix2 (lo k) h)) - a j * W1 (ix2 (lo j) h)) + (W1 (ix2 (hi j) h) + b1 (ix1 h))

/-- The gate of feature `j` on a sample row: the rectified pre-activations against the second layer, plus its bias. -/
def gate (a : Fin 128 → EReal) (W1 : FVec Ideal ⟨2, ![256, 256]⟩ .f32) (b1 : FVec Ideal ⟨1, ![256]⟩ .f32)
    (W2 : FVec Ideal ⟨2, ![256, 1]⟩ .f32) (b2 : FVec Ideal ⟨1, ![1]⟩ .f32) (j : Fin 128) : EReal :=
  (∑ h : Fin 256, max (preact a W1 b1 j h) 0 * W2 (ix2 h (0 : Fin 1))) + b2 (ix1 (0 : Fin 1))

/-- One entry of the result's columns: the feature scaled by one plus its gate. -/
def cell (a : Fin 128 → EReal) (W1 : FVec Ideal ⟨2, ![256, 256]⟩ .f32) (b1 : FVec Ideal ⟨1, ![256]⟩ .f32)
    (W2 : FVec Ideal ⟨2, ![256, 1]⟩ .f32) (b2 : FVec Ideal ⟨1, ![1]⟩ .f32) (j : Fin 128) : EReal :=
  a j * (1 + gate a W1 b1 W2 b2 j)

/-- The [4096, 128] array of columns: entry (n, j) is `cell` of row `n` at feature `j`. -/
def cols (x : FVec Ideal ⟨2, ![4096, 128]⟩ .f32) (W1 : FVec Ideal ⟨2, ![256, 256]⟩ .f32) (b1 : FVec Ideal ⟨1, ![256]⟩ .f32)
    (W2 : FVec Ideal ⟨2, ![256, 1]⟩ .f32) (b2 : FVec Ideal ⟨1, ![1]⟩ .f32) : FVec Ideal ⟨2, ![4096, 128]⟩ .f32 :=
  fun i => cell (fun k => x (ix2 (i 0) k)) W1 b1 W2 b2 (i 1)

/-- The f32 word of 1.0 is the extended real 1. -/
theorem ofBits_one_f32 : Ideal.ofBits .f32 0x3F800000#32 = 1 := by
  simp [Ideal.ofBits, Ideal.ieee, -EReal.coe_mul]; norm_num

/-- The mask entry: the 32-bit words of two feature numbers compare equal exactly when the features are the same, and the
    one-bit answer read as a number is the indicator. -/
theorem mask_entry (j k : Fin 128) :
    (FloatOps.uitofp (F := Ideal) .f32 (IntOp.cmpi .eq (IntOp.addi (BitVec.ofNat 32 j.val) 0#32) (BitVec.ofNat 32 k.val)) : EReal)
      = ind j k := by
  have hj := j.isLt
  have hk := k.isLt
  have e0 : IntOp.addi (BitVec.ofNat 32 j.val) 0#32 = BitVec.ofNat 32 j.val := by simp [IntOp.addi]
  rw [e0]
  unfold ind
  by_cases hjk : j = k
  · subst hjk
    rw [if_pos rfl, (IntOp.cmpi_eq).mpr rfl]
    show (((1#1 : BitVec 1).toNat : ℝ) : EReal) = 1
    simp
  · rw [if_neg hjk]
    have hne : ¬ IntOp.cmpi .eq (BitVec.ofNat 32 j.val) (BitVec.ofNat 32 k.val) = 1#1 := by
      rw [IntOp.cmpi_eq]
      intro h
      apply hjk
      apply Fin.ext
      have := congrArg BitVec.toNat h
      simp only [BitVec.toNat_ofNat] at this
      omega
    rw [eq_zero_of_ne_one hne]
    show (((0#1 : BitVec 1).toNat : ℝ) : EReal) = 0
    simp

/-- The reference's way of forming the pre-activation — feature `j` masked out of the row (the factor `1 − [j = k]`),
    the positional row picked by a one-hot product, the bias added last — is `preact` on finite data. -/
theorem preact_masked (a : Fin 128 → EReal) (W1 : FVec Ideal ⟨2, ![256, 256]⟩ .f32) (b1 : FVec Ideal ⟨1, ![256]⟩ .f32)
    (ha : ∀ k, ∃ r : ℝ, a k = r) (hW : ∀ i, ∃ r : ℝ, W1 i = r) (hb : ∀ i, ∃ r : ℝ, b1 i = r) (j : Fin 128) (h : Fin 256) :
    ((∑ k : Fin 128, (a k * (1 - ind j k)) * W1 (ix2 (lo k) h)) + ∑ k : Fin 128, ind j k * W1 (ix2 (hi k) h)) + b1 (ix1 h)
      = preact a W1 b1 j h := by
  choose ar har using ha
  choose Wr hWr using hW
  choose br hbr using hb
  unfold preact
  simp only [har, hWr, hbr]
  exact (preact_eq ar (fun k => Wr (ix2 (lo k) h)) (fun k => Wr (ix2 (hi k) h)) (br (ix1 h)) j).symm

end Cert.Nimo

end
-- ==== Proof.Payload.lean ====
/-
  The kernel body's stored value, read at an entry of its [64, 128] block.

  The body forms base = x · W1[:128] by one matrix product (the bf16 casts are the identity on the extended reals), the
  rank-3 array base[p, h] − x[p, q] · W1[q, h] + (W1[128 + q, h] + b1[h]) by broadcasting, rectifies it, sums it
  against W2's column over h, adds b2, and stores x[p, q] · (1 + that). Read at (p, q) this is `cell` of row p of the
  block at feature q.
-/
import proofs.«110782_j63264868270309_1_alg».proof.Proof.Gen.KernelIdeal.Skeleton
import proofs.«110782_j63264868270309_1_alg».proof.Proof.LibLayout3
import proofs.«110782_j63264868270309_1_alg».proof.Proof.Spec
import Idealize.ShloMosaic.Lib.ValueLayout

noncomputable section

namespace Cert.KernelIdeal.Hand

open Cert.KernelIdeal Cert.KernelIdeal.Gen Idealize.ShloMosaic Idealize.ShloMosaic.ValueIdx Cert.Nimo

/-! ## The matrix product at an entry -/

theorem lhs_base_0 (i : S64x256.Idx) (q : dot_S64x128_S128x256_S64x256_1_0_0_1_n_n.contr.Idx) :
    (dot_S64x128_S128x256_S64x256_1_0_0_1_n_n.lhsIdx i q 0).val = (i 0).val := by
  unfold DotDims.lhsIdx
  rw [dif_neg (show ¬(0 : Fin S64x128.rank) ∈ dot_S64x128_S128x256_S64x256_1_0_0_1_n_n.lhsBatch by decide), dif_pos (show (0 : Fin S64x128.rank) ∈ dot_S64x128_S128x256_S64x256_1_0_0_1_n_n.lhsNonContracting by decide)]
  rfl
theorem lhs_base_1 (i : S64x256.Idx) (q : dot_S64x128_S128x256_S64x256_1_0_0_1_n_n.contr.Idx) :
    (dot_S64x128_S128x256_S64x256_1_0_0_1_n_n.lhsIdx i q 1).val = (q ⟨0, by decide⟩).val :=
  dot_S64x128_S128x256_S64x256_1_0_0_1_n_n.lhsIdx_val_of_single rfl i q
theorem rhs_base_0 (i : S64x256.Idx) (q : dot_S64x128_S128x256_S64x256_1_0_0_1_n_n.contr.Idx) :
    (dot_S64x128_S128x256_S64x256_1_0_0_1_n_n.rhsIdx i q 0).val = (q ⟨0, by decide⟩).val :=
  dot_S64x128_S128x256_S64x256_1_0_0_1_n_n.rhsIdx_val_of_single rfl i q
theorem rhs_base_1 (i : S64x256.Idx) (q : dot_S64x128_S128x256_S64x256_1_0_0_1_n_n.contr.Idx) :
    (dot_S64x128_S128x256_S64x256_1_0_0_1_n_n.rhsIdx i q 1).val = (i 1).val := by
  unfold DotDims.rhsIdx
  rw [dif_neg (show ¬(1 : Fin S128x256.rank) ∈ dot_S64x128_S128x256_S64x256_1_0_0_1_n_n.rhsBatch by decide), dif_pos (show (1 : Fin S128x256.rank) ∈ dot_S64x128_S128x256_S64x256_1_0_0_1_n_n.rhsNonContracting by decide)]
  rfl

/-- The product of a [64, 128] block with a [128, 256] matrix into a zero accumulator, at (p, h): the sum over the
    128 features of the block's row p against the matrix's column h. -/
theorem base_apply (y0 : FVec Ideal S64x128 .bf16) (y1 : FVec Ideal S128x256 .bf16) (p : Fin 64) (h : Fin 256) :
    matmul dot_S64x128_S128x256_S64x256_1_0_0_1_n_n none y0 y1 (constant (F := Ideal) S64x256 .f32 0x00000000#32) (ix2 p h)
      = ∑ k : Fin 128, y0 (ix2 p k) * y1 (ix2 k h) := by
  simp only [matmul]
  rw [Ideal.matmul_constant_zero_apply, ← Equiv.sum_comp (contrEquiv1 dot_S64x128_S128x256_S64x256_1_0_0_1_n_n 128 rfl rfl).symm]
  refine Finset.sum_congr rfl fun k _ => ?_
  have hk := contrEquiv1_symm_val dot_S64x128_S128x256_S64x256_1_0_0_1_n_n 128 rfl rfl k
  have el : dot_S64x128_S128x256_S64x256_1_0_0_1_n_n.lhsIdx (ix2 p h) ((contrEquiv1 dot_S64x128_S128x256_S64x256_1_0_0_1_n_n 128 rfl rfl).symm k) = ix2 p k := funext fun a => Fin.ext (by
    match a with
    | ⟨0, _⟩ => exact lhs_base_0 _ _
    | ⟨1, _⟩ => exact (lhs_base_1 _ _).trans hk)
  have er : dot_S64x128_S128x256_S64x256_1_0_0_1_n_n.rhsIdx (ix2 p h) ((contrEquiv1 dot_S64x128_S128x256_S64x256_1_0_0_1_n_n 128 rfl rfl).symm k) = ix2 k h := funext fun a => Fin.ext (by
    match a with
    | ⟨0, _⟩ => exact (rhs_base_0 _ _).trans hk
    | ⟨1, _⟩ => exact rhs_base_1 _ _)
  rw [el, er]

/-! ## The stored value at an entry -/

/-- The direct half of the weights, cut from the whole array, at (k, h) is the whole array at row `k`. -/
theorem slice_lo (X : (⟨2, ![256, 256]⟩ : Shape).Idx → EReal) (hs : (⟨2, ![256, 256]⟩ : Shape).Slices ![0, 0] ⟨2, ![128, 256]⟩)
    (k : Fin 128) (h : Fin 256) :
    extractStridedSlice ⟨2, ![128, 256]⟩ ![0, 0] X hs (ix2 k h) = X (ix2 (lo k) h) :=
  slice2_axis0_apply 0 X hs k h (lo k) (Nat.zero_add _).symm

/-- The positional half at (k, h) is the whole array at row `128 + k`. -/
theorem slice_hi (X : (⟨2, ![256, 256]⟩ : Shape).Idx → EReal) (hs : (⟨2, ![256, 256]⟩ : Shape).Slices ![128, 0] ⟨2, ![128, 256]⟩)
    (k : Fin 128) (h : Fin 256) :
    extractStridedSlice ⟨2, ![128, 256]⟩ ![128, 0] X hs (ix2 k h) = X (ix2 (hi k) h) :=
  slice2_axis0_apply 128 X hs k h (hi k) rfl

/-- What the body stores at entry (p, q) of its block is `cell` of the block's row p at feature q. -/
theorem pay_apply (x0 : Vec Ideal S64x128 .f32) (x1 : Vec Ideal S256x256 .f32) (x2 : Vec Ideal S256 .f32)
    (x3 : Vec Ideal S256x1 .f32) (x4 : Vec Ideal S1 .f32) (p : Fin 64) (q : Fin 128) :
    k0_pay1 (F := Ideal) x0 x1 x2 x3 x4 (ix2 p q) = cell (fun k => x0 (ix2 p k)) x1 x2 x3 x4 q := by
  unfold k0_pay1 cell gate preact
  dsimp only
  have e1 : (FloatOps.ofBits (F := Ideal) .f32 0x3F800000#32) = (1 : EReal) := ofBits_one_f32
  have e0 : (FloatOps.ofBits (F := Ideal) .f32 0x00000000#32) = (0 : EReal) := Ideal.ofBits_zero_f32
  have e4 : extractAt ![0] x4 inpos_S1_p0 = x4 (ix1 (0 : Fin 1)) :=
    congrArg x4 (funext fun a => by match a with | ⟨0, _⟩ => rfl)
  simp only [mulf_apply, addf_apply, broadcast_apply, e1, e4]
  refine congrArg (fun z => x0 (ix2 p q) * (1 + (z + x4 (ix1 (0 : Fin 1))))) ?_
  refine (multiReduction_add_last_apply _ _ _ _ _ p q).trans ?_
  refine Finset.sum_congr rfl fun h _ => ?_
  simp only [mulf_apply, addf_apply, subf_apply, maximumf_apply, broadcast_apply, truncf_apply,
    broadcastTo_a1c_abc_apply, shapeCast_ab_a1b_apply, base_apply,
    broadcastTo_ab1_abc_apply, shapeCast_ab_ab1_apply, broadcastTo_1bc_abc_apply, shapeCast_ab_1ab_apply,
    broadcastTo_1b_ab_apply, shapeCast_a_1a_apply, broadcastTo_11c_abc_apply, shapeCast_a_11a_apply,
    shapeCast_a1_a_apply, slice_lo, slice_hi, e0]

end Cert.KernelIdeal.Hand

end
-- ==== Proof.KernelValue.lean ====
/-
  The kernel's run, read: what the result array holds after the run, as one function of the argument arrays.

  Grid point `t` works on rows 64·t … 64·t + 63 of x and of the output, and on the whole of the four parameter arrays.
  What it writes back is therefore block `t` of `cols` of the argument arrays; the 64 blocks tile the [4096, 128] output,
  so the output array ends at `cols`; the host lines after the kernel prepend the column of ones.
-/
import proofs.«110782_j63264868270309_1_alg».proof.Proof.Gen.KernelIdeal.Frame
import proofs.«110782_j63264868270309_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Nimo

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: x's window and the output's window are at block row `t`, column block 0; the
    parameter windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks as entries of the argument arrays -/

/-- Entry (p, k) of x's block at point `t` is x at row 64·t + p. -/
theorem xblk_apply (c : Dev nD) (t : Fin cfg0.N) (p : Fin 64) (k : Fin 128) (r : Fin 4096) (hr : r.val = 64 * t.val + p.val) :
    (iblk m c 0 t : Vec Ideal S64x128 .f32) (ix2 p k) = (V m c main_arg0 : Vec Ideal S4096x128 .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 64 + 1 * p.val = r.val; rw [e0, hr]; omega
  | ⟨1, _⟩ => show win0_0.index t (1 : Fin 2) * 128 + 1 * k.val = k.val; rw [e1]; omega

/-- The first layer's weights are staged whole at every point. -/
theorem w1blk_eq (c : Dev nD) (t : Fin cfg0.N) : (iblk m c 1 t : Vec Ideal S256x256 .f32) = V m c main_arg1 := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- So is the first layer's bias. -/
theorem b1blk_eq (c : Dev nD) (t : Fin cfg0.N) : (iblk m c 2 t : Vec Ideal S256 .f32) = V m c main_arg2 := by
  obtain ⟨-, -, -, -, e0, -⟩ := idx_facts t
  funext y
  unfold iblk
  rw [View.read_apply]
  show V m c main_arg2 _ = V m c main_arg2 y
  congr 1
  funext a
  apply Fin.ext
  match a with
  | ⟨0, _⟩ => show win0_2.index t (0 : Fin 1) * 256 + 1 * (y 0).val = (y 0).val; rw [e0]; omega

/-- So are the second layer's weights. -/
theorem w2blk_eq (c : Dev nD) (t : Fin cfg0.N) : (iblk m c 3 t : Vec Ideal S256x1 .f32) = V m c main_arg3 := by
  obtain ⟨-, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 1 + 1 * (y 1).val = (y 1).val; rw [e1]; omega

/-- And the second layer's bias. -/
theorem b2blk_eq (c : Dev nD) (t : Fin cfg0.N) : (iblk m c 4 t : Vec Ideal S1 .f32) = V m c main_arg4 := by
  obtain ⟨-, -, -, -, -, -, -, e0, -⟩ := idx_facts t
  funext y
  unfold iblk
  rw [View.read_apply]
  show V m c main_arg4 _ = V m c main_arg4 y
  congr 1
  funext a
  apply Fin.ext
  match a with
  | ⟨0, _⟩ => show win0_4.index t (0 : Fin 1) * 1 + 1 * (y 0).val = (y 0).val; rw [e0]; omega

/-! ## What a point writes back, and the output array -/

/-- The columns of the result as a function of the argument arrays as the kernel finds them. -/
abbrev K (c : Dev nD) : Vec Ideal S4096x128 .f32 :=
  cols (V m c main_arg0) (V m c main_arg1) (V m c main_arg2) (V m c main_arg3) (V m c main_arg4)

/-- Entry (p, q) of the output's block at point `t` lies at row 64·t + p of the array. -/
theorem oblk_emb (t : Fin cfg0.N) (p : Fin 64) (q : Fin 128) (r : Fin 4096) (hr : r.val = 64 * t.val + p.val) :
    ((cfg0.win 5).blk t).view.emb (ix2 p q) = (ix2 r q : S4096x128.Idx) := by
  obtain ⟨-, -, -, -, -, -, -, -, e0, e1⟩ := idx_facts t
  funext a
  apply Fin.ext
  match a with
  | ⟨0, _⟩ => show win0_5.index t (0 : Fin 2) * 64 + 1 * p.val = r.val; rw [e0, hr]; omega
  | ⟨1, _⟩ => show win0_5.index t (1 : Fin 2) * 128 + 1 * q.val = q.val; rw [e1]; omega

/-- What point `t` writes back is block `t` of `K`. -/
theorem flushed_eq (c : Dev nD) (t : Fin cfg0.N) :
    (dats m 0 c).flushed 5 t = ((cfg0.win 5).blk t).view.read (Elt Ideal) (K m c) := by
  show (cfg0.win 5).cut (grid0.coords t) ((dats m 0 c).after 5 t) = _
  rw [after0_5]
  unfold out0_5
  rw [View.canon_unit_zero hz2]
  simp only [View.ld_unit_zero (S := S64x128) hz2, View.ld_unit_zero (S := S256x256) hz2, View.ld_unit_zero (S := S256) hz1,
    View.ld_unit_zero (S := S256x1) hz2, View.ld_unit_zero (S := S1) hz1]
  funext y
  obtain ⟨p, q, rfl⟩ : ∃ (p : Fin 64) (q : Fin 128), y = ix2 p q := ⟨y 0, y 1, eq_ix2 y⟩
  have hN : cfg0.N = 64 := N_0
  have hp := p.isLt
  have ht : t.val < 64 := hN ▸ t.isLt
  have hr : 64 * t.val + p.val < 4096 := by omega
  show k0_pay1 (F := Ideal) (iblk m c 0 t) (iblk m c 1 t) (iblk m c 2 t) (iblk m c 3 t) (iblk m c 4 t) (ix2 p q)
    = K m c (((cfg0.win 5).blk t).view.emb (ix2 p q))
  rw [oblk_emb t p q ⟨_, hr⟩ rfl]
  refine (pay_apply (iblk m c 0 t) (iblk m c 1 t) (iblk m c 2 t) (iblk m c 3 t) (iblk m c 4 t) p q).trans ?_
  rw [w1blk_eq, b1blk_eq, w2blk_eq, b2blk_eq]
  show cell _ _ _ _ _ q = cell (fun k => V m c main_arg0 (ix2 ⟨_, hr⟩ k)) _ _ _ _ q
  congr 1
  funext k
  exact xblk_apply m c t p k ⟨_, hr⟩ rfl

/-- An index of the output array is in point `t`'s block iff each coordinate is in the block's range on its axis. -/
theorem mem_oblk (t : Fin cfg0.N) (i : S4096x128.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v0).slice (win0_5.rect t)).set ↔ _
  rw [View.set_slice_whole, Rect.mem_set_unit]
  exact Iff.rfl

/-- Row `r` of the output is written by point `r / 64`. -/
theorem covered (i : S4096x128.Idx) : ∃ t : Fin cfg0.N, (cfg0.win 5).flush t = true ∧ i ∈ ((cfg0.win 5).blk t).view.set := by
  have hN : cfg0.N = 64 := N_0
  have h0 : (i 0).val < 4096 := (i 0).isLt
  have h1 : (i 1).val < 128 := (i 1).isLt
  have hq : (i 0).val / 64 < cfg0.N := by rw [hN]; omega
  obtain ⟨-, -, -, -, -, -, -, -, e0, e1⟩ := idx_facts ⟨(i 0).val / 64, hq⟩
  refine ⟨⟨(i 0).val / 64, hq⟩, flush0_5 _, ?_⟩
  rw [mem_oblk]
  intro a
  match a with
  | ⟨0, _⟩ =>
    show win0_5.index ⟨(i 0).val / 64, hq⟩ (0 : Fin 2) * 64 ≤ (i 0).val ∧ (i 0).val < win0_5.index ⟨(i 0).val / 64, hq⟩ (0 : Fin 2) * 64 + 64
    rw [e0]; show (i 0).val / 64 * 64 ≤ (i 0).val ∧ (i 0).val < (i 0).val / 64 * 64 + 64; omega
  | ⟨1, _⟩ =>
    show win0_5.index ⟨(i 0).val / 64, hq⟩ (1 : Fin 2) * 128 ≤ (i 1).val ∧ (i 1).val < win0_5.index ⟨(i 0).val / 64, hq⟩ (1 : Fin 2) * 128 + 128
    rw [e1]; omega

/-- The output array after the run is `K`. -/
theorem final (c : Dev nD) : (dats m 0 c).arrAt 5 cfg0.N = K m c :=
  (dats m 0 c).arrAt_eq_of_cover 5 (K m c) (fun t _ => flushed_eq m c t) covered

/-! ## The host lines after the kernel, and the run -/

/-- The result: the column of ones, then the columns. -/
abbrev result (c : Dev nD) : Vec Ideal S4096x129 .f32 :=
  concatenate S4096x129 1 [⟨S4096x1, broadcastInDim S4096x1 ![] bcast_S_S4096x1 (constant (F := Ideal) S_ .f32 0x3F800000#32)⟩,
    ⟨S4096x128, K m c⟩] concatenates_S4096x1_S4096x128_S4096x129_d1

/-- What the host lines after the kernel leave in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = K m c from
    (Pipeline.withArrays_arr spec0 launch0.win.arr_inj c _ _ 5).trans (final m c)]

/-- The result buffer is no array of the kernel's pipeline: the host lines after it are what write it. -/
theorem result_mem : main_v2 ∈ Pipeline.restRefs sig (cfgs 0).spec :=
  Pipeline.mem_restRefs_of main_v2 rfl (by decide)

/-- The run, read: every weakly fair execution of the kernel's program ends with the result buffer at the column of ones
    followed by `K`, and the five arguments as they were. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v2 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefValue.lean ====
/-
  The reference's run, read at an entry: its columns are `cols` of the arguments when x, W1 and b1 are finite.

  The reference replicates x over the 128 features with feature j's column zeroed (the factor 1 − [j = k]), multiplies by
  the direct half of W1, adds the positional row picked out by a one-hot product and then the bias, rectifies, contracts
  with W2's column, adds b2, transposes to (n, j) and scales x by one plus that. Each stage is read at coordinates from
  the stage before; the one step that is not a re-indexing is `preact_masked`, where finiteness is used.
-/
import proofs.«110782_j63264868270309_1_alg».proof.Proof.Gen.ReferenceIdeal.Run
import proofs.«110782_j63264868270309_1_alg».proof.Proof.Gen.ReferenceIdeal.Read
import proofs.«110782_j63264868270309_1_alg».proof.Proof.Spec
import Idealize.ShloMosaic.Lib.ValueLayout

noncomputable section

namespace Cert.ReferenceIdeal.Hand

open Cert.ReferenceIdeal Cert.ReferenceIdeal.Gen Cert.ReferenceIdeal.Read Idealize.ShloMosaic Idealize.ShloMosaic.ValueIdx Cert.Nimo

variable (x0 : FVec Ideal S4096x128 .f32) (x1 : FVec Ideal S256x256 .f32) (x2 : FVec Ideal S256 .f32)
  (x3 : FVec Ideal S256x1 .f32) (x4 : FVec Ideal S1 .f32)

/-! ## The mask and the one-hot matrix -/

/-- The identity matrix the mask is made from, at (j, k): the indicator of j = k. -/
theorem eye_mask_at (j k : Fin 128) : val_main_v5 (F := Ideal) (ix2 j k) = ind j k := by
  rw [val_main_v5_apply, val_main_v4_apply, val_main_v3_apply, val_main_v0_apply, val_main_v2_apply, val_main_c_apply,
    val_main_v1_apply]
  exact mask_entry j k

/-- The one-hot matrix of the positional encoding, at (j, k): the same indicator. -/
theorem eye_pe_at (j k : Fin 128) : val_main_v20 (F := Ideal) (ix2 j k) = ind j k := by
  rw [val_main_v20_apply, val_main_v19_apply, val_main_v18_apply, val_main_v15_apply, val_main_v17_apply, val_main_c_0_apply,
    val_main_v16_apply]
  exact mask_entry j k

/-- The mask at (j, k): one less the indicator. -/
theorem mask_at (j k : Fin 128) : val_main_v7 (F := Ideal) (ix2 j k) = 1 - ind j k := by
  rw [val_main_v7_apply, val_main_v6_apply, val_main_cst_apply, eye_mask_at]
  show Ideal.ofBits .f32 0x3F800000#32 - ind j k = 1 - ind j k
  rw [ofBits_one_f32]

/-! ## The first layer -/

/-- The masked copy of x at (j, n, k): x[n, k] with feature j's column zeroed. -/
theorem masked_at (j : Fin 128) (n : Fin 4096) (k : Fin 128) :
    val_main_v12 (F := Ideal) x0 (ix3 j n k) = x0 (ix2 n k) * (1 - ind j k) := by
  have e1 : idx_main_v8 (idx_main_v10 (ix3 j n k)) = ix2 n k :=
    funext fun a => Fin.ext (by match a with | ⟨0, _⟩ => rfl | ⟨1, _⟩ => rfl)
  have e2 : idx_main_v9 (idx_main_v11 (ix3 j n k)) = ix2 j k :=
    funext fun a => Fin.ext (by match a with | ⟨0, _⟩ => rfl | ⟨1, _⟩ => rfl)
  rw [val_main_v12_apply, val_main_v10_apply, val_main_v8_apply, val_main_v11_apply, val_main_v9_apply, e1, e2, mask_at]
  rfl

/-- The masked product at (j, n, h). -/
theorem direct_at (j : Fin 128) (n : Fin 4096) (h : Fin 256) :
    val_main_v14 (F := Ideal) x0 x1 (ix3 j n h) = ∑ k : Fin 128, (x0 (ix2 n k) * (1 - ind j k)) * x1 (ix2 (lo k) h) := by
  rw [val_main_v14_apply]
  refine Finset.sum_congr rfl fun k _ => ?_
  have el : lidx_main_v14 (ix3 j n h) k = ix3 j n k :=
    funext fun a => Fin.ext (by match a with | ⟨0, _⟩ => rfl | ⟨1, _⟩ => rfl | ⟨2, _⟩ => rfl)
  have er : idx_main_v13 (ridx_main_v14 (ix3 j n h) k) = ix2 (lo k) h :=
    funext fun a => Fin.ext (by match a with | ⟨0, _⟩ => rfl | ⟨1, _⟩ => rfl)
  rw [el, masked_at, val_main_v13_apply, er]

/-- The positional term at (j, h): the one-hot row of feature j against the positional half of W1. -/
theorem pe_at (j : Fin 128) (h : Fin 256) :
    val_main_v22 (F := Ideal) x1 (ix2 j h) = ∑ k : Fin 128, ind j k * x1 (ix2 (hi k) h) := by
  rw [val_main_v22_apply]
  refine Finset.sum_congr rfl fun k _ => ?_
  have el : lidx_main_v22 (ix2 j h) k = ix2 j k :=
    funext fun a => Fin.ext (by match a with | ⟨0, _⟩ => rfl | ⟨1, _⟩ => rfl)
  have er : idx_main_v21 (ridx_main_v22 (ix2 j h) k) = ix2 (hi k) h :=
    funext fun a => Fin.ext (by match a with | ⟨0, _⟩ => rfl | ⟨1, _⟩ => rfl)
  rw [el, eye_pe_at, val_main_v21_apply, er]

/-- The pre-activation at (j, n, h), as the reference forms it. -/
theorem hidden_at (j : Fin 128) (n : Fin 4096) (h : Fin 256) :
    val_main_v28 (F := Ideal) x0 x1 x2 (ix3 j n h)
      = ((∑ k : Fin 128, (x0 (ix2 n k) * (1 - ind j k)) * x1 (ix2 (lo k) h)) + ∑ k : Fin 128, ind j k * x1 (ix2 (hi k) h))
          + x2 (ix1 h) := by
  have e1 : idx_main_v23 (idx_main_v24 (ix3 j n h)) = ix2 j h :=
    funext fun a => Fin.ext (by match a with | ⟨0, _⟩ => rfl | ⟨1, _⟩ => rfl)
  have e2 : idx_main_v26 (idx_main_v27 (ix3 j n h)) = ix1 h :=
    funext fun a => Fin.ext (by match a with | ⟨0, _⟩ => rfl)
  rw [val_main_v28_apply, val_main_v25_apply, direct_at, val_main_v24_apply, val_main_v23_apply, e1, pe_at,
    val_main_v27_apply, val_main_v26_apply, e2]
  rfl

/-- The rectified hidden layer at (j, n, h), on finite data: the rectified `preact`. -/
theorem relu_at (hx0 : ∀ i, ∃ r : ℝ, x0 i = r) (hx1 : ∀ i, ∃ r : ℝ, x1 i = r) (hx2 : ∀ i, ∃ r : ℝ, x2 i = r)
    (j : Fin 128) (n : Fin 4096) (h : Fin 256) :
    val_main_v29 (F := Ideal) x0 x1 x2 (ix3 j n h) = max (preact (fun k => x0 (ix2 n k)) x1 x2 j h) 0 := by
  rw [val_main_v29_apply, hidden_at, val_main_call0_v0_apply, val_main_call0_cst_apply,
    preact_masked (fun k => x0 (ix2 n k)) x1 x2 (fun k => hx0 _) hx1 hx2 j h]
  show max _ (Ideal.ofBits .f32 0x00000000#32) = _
  rw [Ideal.ofBits_zero_f32]

/-! ## The second layer and the result's columns -/

/-- The second layer's bias, reshaped to a scalar, is b2[0]. -/
theorem b2_at (i : S_.Idx) : val_main_v32 (F := Ideal) x4 i = x4 (ix1 (0 : Fin 1)) := by
  unfold val_main_v32
  refine shapeCast_apply x4 _ i (ix1 (0 : Fin 1)) ?_
  have h1 := (S_.rowMajor i).isLt
  rw [Shape.rowMajor_val_one]
  show (0 : Nat) = _
  have : S_.numel = 1 := by decide
  omega

/-- The gate at (j, n), on finite data. -/
theorem gate_at (hx0 : ∀ i, ∃ r : ℝ, x0 i = r) (hx1 : ∀ i, ∃ r : ℝ, x1 i = r) (hx2 : ∀ i, ∃ r : ℝ, x2 i = r)
    (j : Fin 128) (n : Fin 4096) :
    val_main_v34 (F := Ideal) x0 x1 x2 x3 x4 (ix2 j n) = gate (fun k => x0 (ix2 n k)) x1 x2 x3 x4 j := by
  have hj := j.isLt
  have hn := n.isLt
  have e1 : idx_main_v31 (ix2 j n) = ix3 j n (0 : Fin 1) :=
    funext fun a => Fin.ext (by
      match a with
      | ⟨0, _⟩ => show (j.val * 4096 + n.val) / 4096 = j.val; omega
      | ⟨1, _⟩ => show (j.val * 4096 + n.val) / 1 % 4096 = n.val; omega
      | ⟨2, _⟩ => rfl)
  rw [val_main_v34_apply, val_main_v31_apply, e1, val_main_v30_apply, val_main_v33_apply, b2_at]
  unfold gate
  refine congrArg (· + x4 (ix1 (0 : Fin 1))) (Finset.sum_congr rfl fun h _ => ?_)
  have el : lidx_main_v30 (ix3 j n (0 : Fin 1)) h = ix3 j n h :=
    funext fun a => Fin.ext (by match a with | ⟨0, _⟩ => rfl | ⟨1, _⟩ => rfl | ⟨2, _⟩ => rfl)
  have er : ridx_main_v30 (ix3 j n (0 : Fin 1)) h = ix2 h (0 : Fin 1) :=
    funext fun a => Fin.ext (by match a with | ⟨0, _⟩ => rfl | ⟨1, _⟩ => rfl)
  rw [el, er, relu_at x0 x1 x2 hx0 hx1 hx2]

/-- The reference's columns are `cols` of the arguments, on finite x, W1 and b1. -/
theorem ref_cols (hx0 : ∀ i, ∃ r : ℝ, x0 i = r) (hx1 : ∀ i, ∃ r : ℝ, x1 i = r) (hx2 : ∀ i, ∃ r : ℝ, x2 i = r) :
    val_main_v38 (F := Ideal) x0 x1 x2 x3 x4 = cols x0 x1 x2 x3 x4 := by
  funext i
  obtain ⟨n, j, rfl⟩ : ∃ (n : Fin 4096) (j : Fin 128), i = ix2 n j := ⟨i 0, i 1, eq_ix2 i⟩
  have e1 : idx_main_v35 (ix2 n j) = ix2 j n :=
    funext fun a => Fin.ext (by match a with | ⟨0, _⟩ => rfl | ⟨1, _⟩ => rfl)
  rw [val_main_v38_apply, val_main_v37_apply, val_main_v36_apply, val_main_cst_1_apply, val_main_v35_apply, e1,
    gate_at x0 x1 x2 x3 x4 hx0 hx1 hx2]
  show x0 (ix2 n j) * (Ideal.ofBits .f32 0x3F800000#32 + _) = _
  rw [ofBits_one_f32]
  rfl

end Cert.ReferenceIdeal.Hand

end
-- ==== Proof.Finite.lean ====
/-
  The precondition, read: when `finite_inputs` holds of the arguments, every entry of x, W1 and b1 is a real number.

  The predicate is the conjunction, over the five arrays, of "every |entry| is below +∞". A conjunction of one-bit words
  that is 1 has every conjunct 1; an all-reduction by `and` that is 1 had a 1 at every index; and an extended real whose
  absolute value is below +∞ is neither infinity.
-/
import proofs.«110782_j63264868270309_1_alg».proof.Pre_finite_inputs
import proofs.«110782_j63264868270309_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic

instance : Subsingleton S_.Idx := ⟨fun a b => funext fun d => d.elim0⟩

/-- An extended real whose absolute value compares below the f32 word of +∞ is a real number. -/
theorem real_of_abs_lt (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition x, W1 and b1 hold real numbers only. -/
theorem real_of_pre (a0 : FVec Ideal S4096x128 .f32) (a1 : FVec Ideal S256x256 .f32) (a2 : FVec Ideal S256 .f32)
    (a3 : FVec Ideal S256x1 .f32) (a4 : FVec Ideal S1 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1] at h0
  obtain ⟨h1234, -⟩ := IntOp.andi_eq_one.1 h0
  obtain ⟨h123, -⟩ := IntOp.andi_eq_one.1 h1234
  obtain ⟨h12, h3⟩ := IntOp.andi_eq_one.1 h123
  obtain ⟨h1, h2⟩ := IntOp.andi_eq_one.1 h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Pre_finite_inputs.Hand

end
-- ==== Proof.lean ====
/-
  The certificate of a feature-gating MLP kernel against its batched reference, over the extended reals.

  For x : [4096, 128] and a two-layer net (W1 : [256, 256], b1, W2 : [256, 1], b2) the result is the column of ones
  followed by x[n, j] · (1 + g(n, j)), where g(n, j) runs the net on row n with feature j zeroed and the one-hot
  position of j appended. The reference does that literally: 128 masked copies of x through one batched product, plus
  the one-hot product for the positional rows. The kernel computes the unmasked product once per 64-row block and
  subtracts the rank-one term x[n, j] · W1[j, ·]. On finite inputs the two pre-activations are the same real number
  (`Cert.Nimo.preact_eq`); everything after the pre-activation is the same sequence of operations on both sides.

  The three frames are the generated ones (the reference's is its generated run with the result dropped); the
  idealization rewrote no operation, so `preserves` is trivial; `algebraic` puts the kernel's run, read back as `cols` of the arguments
  (Proof/KernelValue.lean), beside the reference's run read stage by stage to the same function (Proof/RefValue.lean),
  finiteness coming from the precondition (Proof/Finite.lean).
-/
import proofs.«110782_j63264868270309_1_alg».proof.Defs
import proofs.«110782_j63264868270309_1_alg».proof.Proof.Gen.Kernel
import proofs.«110782_j63264868270309_1_alg».proof.Proof.Gen.Kernel.Skeleton
import proofs.«110782_j63264868270309_1_alg».proof.Proof.Gen.Kernel.Launch
import proofs.«110782_j63264868270309_1_alg».proof.Proof.Gen.Kernel.Points
import proofs.«110782_j63264868270309_1_alg».proof.Proof.Gen.Kernel.Frame
import proofs.«110782_j63264868270309_1_alg».proof.Proof.Gen.KernelIdeal
import proofs.«110782_j63264868270309_1_alg».proof.Proof.Gen.KernelIdeal.Skeleton
import proofs.«110782_j63264868270309_1_alg».proof.Proof.Gen.KernelIdeal.Launch
import proofs.«110782_j63264868270309_1_alg».proof.Proof.Gen.KernelIdeal.Points
import proofs.«110782_j63264868270309_1_alg».proof.Proof.Gen.KernelIdeal.Frame
import proofs.«110782_j63264868270309_1_alg».proof.Proof.Gen.ReferenceIdeal
import proofs.«110782_j63264868270309_1_alg».proof.Proof.Gen.ReferenceIdeal.Run
import proofs.«110782_j63264868270309_1_alg».proof.Proof.Gen.ReferenceIdeal.Read
import proofs.«110782_j63264868270309_1_alg».proof.Proof.Gen.Pre_finite_inputs
import proofs.«110782_j63264868270309_1_alg».proof.Proof.KernelValue
import proofs.«110782_j63264868270309_1_alg».proof.Proof.RefValue
import proofs.«110782_j63264868270309_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the column of ones followed by `cols` of the (agreeing) arguments: the kernel by its run read
    back, the reference by its stages read at coordinates, x, W1 and b1 being finite under the precondition. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Pre_finite_inputs.Hand.real_of_pre _ _ _ _ _ (hpre c)
  rw [(hagree c).1, (hagree c).2.1, (hagree c).2.2.1, (hagree c).2.2.2.1, (hagree c).2.2.2.2]
  refine (Cert.ReferenceIdeal.Read.val_main_v40_eq _ _ _ _ _).trans ?_
  unfold Cert.ReferenceIdeal.Read.val_main_v40
  rw [Cert.ReferenceIdeal.Hand.ref_cols _ _ _ _ _ f0 f1 f2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
